-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x512 : Shape := ⟨2, ![2048, 512]⟩
abbrev S512 : Shape := ⟨1, ![512]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_cst_10 : FVec F S_ .f32 := constant S_ .f32 0x00000000#32
  let main_v29 : FVec F S512 .f32 := broadcastInDim S512 ![] bcast_S_S512 main_cst_10
  let main_v30 : IVec S512 1 := cmpf .oge main_arg5 main_v29
  let main_c_11 : IVec S_ 1 := constantI S_ 1 1#1
  let main_v31 : IVec S_ 1 := (fun x v => Host.reduce IntOp.andi x v reducesTo_S512_S_d0 h_S_) main_v30 main_c_11
  let main_v32 : IVec S_ 1 := andi main_v28 main_v31
  main_v32

def fn {F : FTy → Type} [FloatOps F] (main_arg0 : FVec F S32768x2048 .f32) (main_arg1 : FVec F S2048x512 .f32) (main_arg2 : FVec F S512 .f32) (main_arg3 : FVec F S512 .f32) (main_arg4 : FVec F S512 .f32) (main_arg5 : FVec F S512 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S32768x2048 : Shape := ⟨2, ![32768, 2048]⟩
abbrev S2048x512 : Shape := ⟨2, ![2048, 512]⟩
abbrev S512 : Shape := ⟨1, ![512]⟩
abbrev S_ : Shape := ⟨0, ![]⟩
abbrev S1x512 : Shape := ⟨2, ![1, 512]⟩
abbrev S32768x512 : Shape := ⟨2, ![32768, 512]⟩
abbrev S1024x2048 : Shape := ⟨2, ![1024, 2048]⟩
abbrev S1024x512 : Shape := ⟨2, ![1024, 512]⟩

abbrev nBuf : Space → Nat
  | .hbm => 25
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S2048x512, .f32⟩
  | .hbm, ⟨8, _⟩ => ⟨S2048x512, .i1⟩
  | .hbm, ⟨9, _⟩ => ⟨S_, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .bf16⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S1x512, .f32⟩
  | .hbm, ⟨24, _⟩ => ⟨S32768x512, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2048x512 : S_.BroadcastsInDim S2048x512 (![] : Fin 0 → Fin S2048x512.rank)
  bitsLt_bf16_f32 : FTy.bits .bf16 < FTy.bits .f32
  bcast_S_S512 : S_.BroadcastsInDim S512 (![] : Fin 0 → Fin S512.rank)
  shapeCasts_S512_S1x512 : S512.ShapeCasts S1x512
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S32768x512.size a
  hwx0_4 : ∀ i : grid0.Coords, EltTy.bits .f32 = 32 ∨ (Rect.block (s := S32768x512) S1024x512.size (cc0_transform_4 i) (hinb0_4 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048x512 : Shape := ⟨2, ![2048, 512]⟩
abbrev S512 : Shape := ⟨1, ![512]⟩
abbrev S_ : Shape := ⟨0, ![]⟩
abbrev S32768x512 : Shape := ⟨2, ![32768, 512]⟩
abbrev S1x512 : Shape := ⟨2, ![1, 512]⟩

abbrev nBuf : Space → Nat
  | .hbm => 41
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S32768x2048, .f32⟩
  | .hbm, ⟨8, _⟩ => ⟨S32768x2048, .i1⟩
  | .hbm, ⟨9, _⟩ => ⟨S_, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S2048x512, .f32⟩
  | .hbm, ⟨17, _⟩ => ⟨S2048x512, .i1⟩
  | .hbm, ⟨18, _⟩ => ⟨S_, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S32768x512, .f32⟩
  | .hbm, ⟨25, _⟩ => ⟨S1x512, .f32⟩
  | .hbm, ⟨26, _⟩ => ⟨S32768x512, .f32⟩
  | .hbm, ⟨27, _⟩ => ⟨S32768x512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S32768x512, .f32⟩
  | .hbm, ⟨34, _⟩ => ⟨S32768x512, .f32⟩
  | .hbm, ⟨35, _⟩ => ⟨S1x512, .f32⟩
  | .hbm, ⟨36, _⟩ => ⟨S32768x512, .f32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_cst_4 : Ref sig .tc := ⟨.hbm, 19, rfl⟩
abbrev main_call1_v0 : Ref sig .tc := ⟨.hbm, 20, rfl⟩
abbrev main_call1_v1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S_S32768x2048 : S_.BroadcastsInDim S32768x2048 (![] : Fin 0 → Fin S32768x2048.rank)
  bcast_S_S2048x512 : S_.BroadcastsInDim S2048x512 (![] : Fin 0 → Fin S2048x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S512 : S_.BroadcastsInDim S512 (![] : Fin 0 → Fin S512.rank)
  dot_S32768x2048_S2048x512_S32768x512_1_0_0_1_n_n_wf : DotDims.WF S32768x2048 S2048x512 S32768x512 [1] [0] [0] [1] [] []

variable [Facts₀]

def dot_S32768x2048_S2048x512_S32768x512_1_0_0_1_n_n : DotDims S32768x2048 S2048x512 S32768x512 where
  lhsContracting := [1]
  rhsContracting := [0]
  lhsNonContracting := [0]
  rhsNonContracting := [1]
  lhsBatch := []
  rhsBatch := []
  wf := dot_S32768x2048_S2048x512_S32768x512_1_0_0_1_n_n_wf

class Facts : Prop extends Facts₀ where

variable [Facts]
-- ==== Proof.PreDecode.lean ====
/-
  What the precondition says of the four per-column vectors.

  The printed precondition is a conjunction of seven `jnp.all`s: `|a| < +inf` for each of the six inputs, and
  `moving_var ≥ 0`. On the extended reals `|a| = max a (-a)` is below `+inf` exactly when `a` is a real number, so the
  bias, the shift and the mean are real entry by entry, and every variance is a nonnegative real.
-/
import proofs.«124828_j84585085927956_1_alg».proof.Pre_finite_inputs
import Idealize.ShloMosaic.Lib.ReduceAll
import Idealize.ShloMosaic.Lib.ValueIdx
import Idealize.ShloMosaic.PureOps.Ideal.Laws

noncomputable section

namespace Cert.PreDecode

open Idealize.ShloMosaic Idealize.ShloMosaic.ValueIdx Cert.Pre_finite_inputs

instance : Subsingleton S_.Idx := ⟨fun a b => funext fun d => d.elim0⟩

/-- The word of `+inf` denotes the top element. -/
theorem ofBits_inf : Ideal.ofBits .f32 0x7F800000#32 = (⊤ : EReal) := by
  simp [Ideal.ofBits, Ideal.ieee]

/-- An extended real whose absolute value compares below `+inf` is a real number. -/
theorem real_of_abs_lt_inf (a : EReal)
    (h : Ideal.cmp .olt (max a (-a)) (Ideal.ofBits .f32 0x7F800000#32) = 1#1) : ∃ r : ℝ, a = (r : EReal) := by
  rw [ofBits_inf] at h
  have hlt : max a (-a) < ⊤ := by
    by_contra hn
    simp [Ideal.cmp, hn] at h
  induction a using EReal.rec with
  | bot => simp at hlt
  | coe r => exact ⟨r, rfl⟩
  | top => simp at hlt

/-- An extended real that compares at or above the zero word is nonnegative. -/
theorem nonneg_of_ge_zero (a : EReal)
    (h : Ideal.cmp .oge a (Ideal.ofBits .f32 0x00000000#32) = 1#1) : 0 ≤ a := by
  rw [Ideal.ofBits_zero_f32] at h
  by_contra hn
  simp [Ideal.cmp, hn] at h

variable [Facts]

/-- The precondition, read: bias, shift and mean are real at every column; every variance is a nonnegative real. -/
theorem columns_real (x : FVec Ideal S32768x2048 .f32) (w : FVec Ideal S2048x512 .f32)
    (b beta mean var : FVec Ideal S512 .f32) (h : fn (F := Ideal) x w b beta mean var = fun _ => 1#1) :
    (∀ j, ∃ r : ℝ, b j = (r : EReal)) ∧ (∀ j, ∃ r : ℝ, beta j = (r : EReal)) ∧ (∀ j, ∃ r : ℝ, mean j = (r : EReal))
      ∧ (∀ j, ∃ r : ℝ, 0 ≤ r ∧ var j = (r : EReal)) := by
  have h0 := congrFun h ix0
  dsimp only [fn, fn_part1] at h0
  obtain ⟨h28, h31⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨_, h12⟩ := IntOp.andi_eq_one.1 h13
  have fin_var : ∀ j, ∃ r : ℝ, var j = (r : EReal) := fun j =>
    real_of_abs_lt_inf _ (Host.reduce_andi_all _ _ _ _ ix0 h27 j)
  refine ⟨fun j => real_of_abs_lt_inf _ (Host.reduce_andi_all _ _ _ _ ix0 h12 j),
    fun j => real_of_abs_lt_inf _ (Host.reduce_andi_all _ _ _ _ ix0 h17 j),
    fun j => real_of_abs_lt_inf _ (Host.reduce_andi_all _ _ _ _ ix0 h22 j), fun j => ?_⟩
  obtain ⟨r, hr⟩ := fin_var j
  have hge : 0 ≤ var j := nonneg_of_ge_zero _ (Host.reduce_andi_all _ _ _ _ ix0 h31 j)
  rw [hr] at hge
  exact ⟨r, EReal.coe_nonneg.1 hge, hr⟩

end Cert.PreDecode

end
-- ==== Proof.SignDot.lean ====
/-
  The sign function with sign(0) = +1 on the extended reals, and the dot product of two sign vectors.

  Both programs binarize their operands by comparing with zero and selecting between the words of 1.0 and -1.0; on the
  extended reals that is the function `sgn` below, whose only values are the reals 1 and -1. A contraction of length
  2048 of products of such values is therefore a real number (an integer between -2048 and 2048): `bdot_real`.
-/
import Idealize.ShloMosaic.PureOps.Ideal
import Idealize.ShloMosaic.Lib.ValueIdx

noncomputable section

open scoped BigOperators

namespace Cert.SignDot

open Idealize.ShloMosaic Idealize.ShloMosaic.ValueIdx

/-- The word of `1.0` denotes the real 1. -/
theorem ofBits_one : Ideal.ofBits .f32 0x3F800000#32 = ((1 : ℝ) : EReal) := by
  simp [Ideal.ofBits, Ideal.ieee, -EReal.coe_mul]; norm_num

/-- The word of `-1.0` denotes the real -1. -/
theorem ofBits_neg_one : Ideal.ofBits .f32 0xBF800000#32 = ((-1 : ℝ) : EReal) := by
  simp [Ideal.ofBits, Ideal.ieee, -EReal.coe_mul]; norm_num

/-- `where(a ≥ 0, 1.0, -1.0)` on one extended real. -/
def sgn (a : EReal) : EReal :=
  Scalar.select (Ideal.cmp .oge a (Ideal.ofBits .f32 0x00000000#32)) (Ideal.ofBits .f32 0x3F800000#32)
    (Ideal.ofBits .f32 0xBF800000#32)

/-- Its value is a real number (1 or -1), whatever the argument, the infinities included. -/
theorem sgn_real (a : EReal) : ∃ r : ℝ, sgn a = (r : EReal) := by
  unfold sgn Scalar.select
  split
  · exact ⟨1, ofBits_one⟩
  · exact ⟨-1, ofBits_neg_one⟩

/-- A finite sum of (coerced) reals is the coerced real sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The dot product of row `p` of `sgn x` with column `q` of `sgn w`, over the 2048 contracted positions. -/
def bdot (x : (⟨2, ![32768, 2048]⟩ : Shape).Idx → EReal) (w : (⟨2, ![2048, 512]⟩ : Shape).Idx → EReal)
    (p : Fin 32768) (q : Fin 512) : EReal :=
  ∑ k : Fin 2048, sgn (x (ix2 p k)) * sgn (w (ix2 k q))

/-- It is a real number: each term is a product of two reals. -/
theorem bdot_real (x : (⟨2, ![32768, 2048]⟩ : Shape).Idx → EReal) (w : (⟨2, ![2048, 512]⟩ : Shape).Idx → EReal)
    (p : Fin 32768) (q : Fin 512) : ∃ r : ℝ, bdot x w p q = (r : EReal) := by
  choose f hf using fun k : Fin 2048 => sgn_real (x (ix2 p k))
  choose g hg using fun k : Fin 2048 => sgn_real (w (ix2 k q))
  refine ⟨∑ k : Fin 2048, f k * g k, ?_⟩
  unfold bdot
  rw [← coe_sum]
  refine Finset.sum_congr rfl fun k _ => ?_
  rw [hf k, hg k, EReal.coe_mul]

end Cert.SignDot

end
-- ==== Proof.BnAffine.lean ====
/-
  The batch-norm affine map after the binary dot product, in the two arrangements the programs compute it.

  With `y = bdot x w p q`, `s = rsqrt (var q + ε)` (ε the word of 1e-3, the same in both programs):
    one program folds the bias into the affine map first:   y · s + ((b q − mean q) · s + beta q),
    the other subtracts the mean after adding the bias:     ((y + b q) − mean q) · s + beta q.
  Over the reals these agree by distributivity. On the extended reals distributivity needs every operand finite:
  `y` always is (`bdot_real`); `b`, `mean`, `beta` are by hypothesis; and `s` is a real as soon as `var q` is a
  nonnegative real, since then `var q + ε > 0` and `rsqrt` takes its ordinary value `1 / √(var q + ε)`.
-/
import proofs.«124828_j84585085927956_1_alg».proof.Proof.SignDot

noncomputable section

namespace Cert.BnAffine

open Idealize.ShloMosaic Idealize.ShloMosaic.ValueIdx Cert.SignDot

/-- The word `0x3A83126F` (f32 nearest 1e-3) denotes a positive real. -/
theorem ofBits_eps : Ideal.ofBits .f32 0x3A83126F#32 = ((8589935 / 8589934592 : ℝ) : EReal) := by
  simp [Ideal.ofBits, Ideal.ieee, -EReal.coe_mul]; norm_num

/-- The inverse standard deviation `rsqrt (v + ε)`. -/
def inv (v : EReal) : EReal := Ideal.rsqrt (v + Ideal.ofBits .f32 0x3A83126F#32)

/-- At a nonnegative real variance it is a real number. -/
theorem inv_real (r : ℝ) (hr : 0 ≤ r) : ∃ s : ℝ, inv (r : EReal) = (s : EReal) := by
  unfold inv
  rw [ofBits_eps, ← EReal.coe_add, Ideal.rsqrt_coe, if_neg (by linarith [show (0 : ℝ) < 8589935 / 8589934592 by norm_num]),
    if_neg (by linarith [show (0 : ℝ) < 8589935 / 8589934592 by norm_num])]
  exact ⟨_, rfl⟩

/-- The bias folded first: `y · s + ((b − mean) · s + beta)` at row `p`, column `q`. -/
def foldedAt (x : (⟨2, ![32768, 2048]⟩ : Shape).Idx → EReal) (w : (⟨2, ![2048, 512]⟩ : Shape).Idx → EReal)
    (b beta mean var : (⟨1, ![512]⟩ : Shape).Idx → EReal) (p : Fin 32768) (q : Fin 512) : EReal :=
  bdot x w p q * inv (var (ix1 q)) + ((b (ix1 q) - mean (ix1 q)) * inv (var (ix1 q)) + beta (ix1 q))

/-- The mean subtracted after the bias: `((y + b) − mean) · s + beta` at row `p`, column `q`. -/
def stagedAt (x : (⟨2, ![32768, 2048]⟩ : Shape).Idx → EReal) (w : (⟨2, ![2048, 512]⟩ : Shape).Idx → EReal)
    (b beta mean var : (⟨1, ![512]⟩ : Shape).Idx → EReal) (p : Fin 32768) (q : Fin 512) : EReal :=
  ((bdot x w p q + b (ix1 q)) - mean (ix1 q)) * inv (var (ix1 q)) + beta (ix1 q)

/-- The whole result array in the folded arrangement. -/
def folded (x : (⟨2, ![32768, 2048]⟩ : Shape).Idx → EReal) (w : (⟨2, ![2048, 512]⟩ : Shape).Idx → EReal)
    (b beta mean var : (⟨1, ![512]⟩ : Shape).Idx → EReal) : (⟨2, ![32768, 512]⟩ : Shape).Idx → EReal :=
  fun i => foldedAt x w b beta mean var (i 0) (i 1)

/-- Distributivity over the reals, read on the extended reals at real operands. -/
theorem affine_law (y b mu be s : ℝ) :
    (((y : EReal) + (b : EReal)) - (mu : EReal)) * (s : EReal) + (be : EReal)
      = (y : EReal) * (s : EReal) + (((b : EReal) - (mu : EReal)) * (s : EReal) + (be : EReal)) := by
  norm_cast
  ring

/-- The two arrangements agree wherever bias, mean and shift are real and the variance is a nonnegative real. -/
theorem stagedAt_eq_foldedAt (x : (⟨2, ![32768, 2048]⟩ : Shape).Idx → EReal) (w : (⟨2, ![2048, 512]⟩ : Shape).Idx → EReal)
    (b beta mean var : (⟨1, ![512]⟩ : Shape).Idx → EReal)
    (hb : ∀ j, ∃ r : ℝ, b j = (r : EReal)) (hbeta : ∀ j, ∃ r : ℝ, beta j = (r : EReal))
    (hmean : ∀ j, ∃ r : ℝ, mean j = (r : EReal)) (hvar : ∀ j, ∃ r : ℝ, 0 ≤ r ∧ var j = (r : EReal))
    (p : Fin 32768) (q : Fin 512) :
    stagedAt x w b beta mean var p q = foldedAt x w b beta mean var p q := by
  obtain ⟨y, hy⟩ := bdot_real x w p q
  obtain ⟨rb, hrb⟩ := hb (ix1 q)
  obtain ⟨rbe, hrbe⟩ := hbeta (ix1 q)
  obtain ⟨rmu, hrmu⟩ := hmean (ix1 q)
  obtain ⟨rv, hrv0, hrv⟩ := hvar (ix1 q)
  obtain ⟨s, hs⟩ := inv_real rv hrv0
  unfold stagedAt foldedAt
  rw [hy, hrb, hrbe, hrmu, hrv, hs]
  exact affine_law y rb rmu rbe s

end Cert.BnAffine

end
-- ==== Proof.RefStaged.lean ====
/-
  The reference program's result, index by index, is the staged arrangement of the affine map.

  The reference binarizes both matrices by `where(a ≥ 0, 1.0, -1.0)`, contracts them over the 2048 shared positions, adds
  the bias, subtracts the mean, multiplies by `rsqrt (var + ε)` and adds the shift, each per-column vector broadcast along
  the rows. Read one operation at a time at the index `(p, q)`, that is `((bdot x w p q + b q) − mean q) · inv (var q) + beta q`.
-/
import proofs.«124828_j84585085927956_1_alg».proof.Proof.Gen.ReferenceIdeal.Read
import proofs.«124828_j84585085927956_1_alg».proof.Proof.BnAffine

noncomputable section

namespace Cert.RefStaged

open Idealize.ShloMosaic Idealize.ShloMosaic.ValueIdx Cert.SignDot Cert.BnAffine
open Cert.ReferenceIdeal Cert.ReferenceIdeal.Read

/-- The left operand of the contraction is read at row `i 0`, position `k`. -/
theorem lidx_eq (i : S32768x512.Idx) (k : Fin 2048) : lidx_main_v8 i k = ix2 (n0 := 32768) (n1 := 2048) (i 0) k :=
  funext fun a => match a with | ⟨0, _⟩ => rfl | ⟨1, _⟩ => rfl
/-- The right operand is read at position `k`, column `i 1`. -/
theorem ridx_eq (i : S32768x512.Idx) (k : Fin 2048) : ridx_main_v8 i k = ix2 (n0 := 2048) (n1 := 512) k (i 1) :=
  funext fun a => match a with | ⟨0, _⟩ => rfl | ⟨1, _⟩ => rfl
/-- Each per-column vector, broadcast to a row and then along the rows, is read at the column `i 1`. -/
theorem col_bias (i : S32768x512.Idx) : idx_main_v9 (idx_main_v10 i) = ix1 (n := 512) (i 1) :=
  funext fun a => match a with | ⟨0, _⟩ => rfl
theorem col_mean (i : S32768x512.Idx) : idx_main_v15 (idx_main_v16 i) = ix1 (n := 512) (i 1) :=
  funext fun a => match a with | ⟨0, _⟩ => rfl
theorem col_inv (i : S32768x512.Idx) : idx_main_v18 (idx_main_v19 i) = ix1 (n := 512) (i 1) :=
  funext fun a => match a with | ⟨0, _⟩ => rfl
theorem col_shift (i : S32768x512.Idx) : idx_main_v21 (idx_main_v22 i) = ix1 (n := 512) (i 1) :=
  funext fun a => match a with | ⟨0, _⟩ => rfl

/-- The binarized left matrix is `sgn` entry by entry. -/
theorem sgn_left (x0 : FVec Ideal S32768x2048 .f32) (j : S32768x2048.Idx) : val_main_v3 (F := Ideal) x0 j = sgn (x0 j) := rfl
/-- The binarized right matrix is `sgn` entry by entry. -/
theorem sgn_right (x1 : FVec Ideal S2048x512 .f32) (j : S2048x512.Idx) : val_main_v7 (F := Ideal) x1 j = sgn (x1 j) := rfl

/-- The reference's result at an index is the staged arrangement there. -/
theorem result_apply (x0 : FVec Ideal S32768x2048 .f32) (x1 : FVec Ideal S2048x512 .f32) (x2 x3 x4 x5 : FVec Ideal S512 .f32)
    (i : S32768x512.Idx) :
    val_main_v23 (F := Ideal) x0 x1 x2 x3 x4 x5 i = stagedAt x0 x1 x2 x3 x4 x5 (i 0) (i 1) := by
  rw [val_main_v23_apply, val_main_v20_apply, val_main_v17_apply, val_main_v11_apply, val_main_v8_apply,
    val_main_v10_apply, val_main_v9_apply, val_main_v16_apply, val_main_v15_apply, val_main_v19_apply, val_main_v18_apply,
    val_main_v14_apply, val_main_v13_apply, val_main_v12_apply, val_main_cst_5_apply, val_main_v22_apply, val_main_v21_apply]
  simp only [col_bias, col_mean, col_inv, col_shift, lidx_eq, ridx_eq, sgn_left, sgn_right, Ideal.addf_def, Ideal.subf_def,
    Ideal.mulf_def, Ideal.hostUnary_rsqrt_def, Ideal.ofBits_def]
  rfl

end Cert.RefStaged

end
-- ==== Proof.KernelPoint.lean ====
/-
  One grid point of the kernel: what its body stores at row `p`, column `q` of the 1024 × 512 output block.

  The body binarizes its 1024 × 2048 input block by `where(a ≥ 0, 1.0, -1.0)`, contracts it with the (already binarized)
  2048 × 512 weight block over the 2048 shared positions into a zero accumulator, multiplies by the scale row and adds the
  bias row, each row broadcast over the 1024 rows. A change of float format is the identity on the extended reals.
-/
import proofs.«124828_j84585085927956_1_alg».proof.Proof.Gen.KernelIdeal.Skeleton
import proofs.«124828_j84585085927956_1_alg».proof.Proof.BnAffine
import Idealize.ShloMosaic.Lib.ValueLayout
import Idealize.ShloMosaic.Lib.Pipeline.Value
import Idealize.ShloMosaic.PureOps.Ideal.Laws

noncomputable section

namespace Cert.KernelPoint

open Idealize.ShloMosaic Idealize.ShloMosaic.ValueIdx Cert.SignDot Cert.BnAffine
open Cert.KernelIdeal Cert.KernelIdeal.Gen

/-! ## The contraction's operand indices, axis by axis -/

theorem lhs_axis0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhs_axis1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhs_axis0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhs_axis1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The block product into a zero accumulator, at row `p` and column `q`, is the sum over the 2048 shared positions. -/
theorem matmul_at (l : FVec Ideal S1024x2048 .bf16) (r : FVec Ideal S2048x512 .bf16) (p : Fin 1024) (q : Fin 512) :
    matmul dot_S1024x2048_S2048x512_S1024x512_1_0_0_1_n_n none l r (constant S1024x512 .f32 0x00000000#32) (ix2 p q)
      = ∑ k : Fin 2048, l (ix2 p k) * r (ix2 k q) := by
  simp only [matmul]
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p q) ((contrEquiv1 dot_S1024x2048_S2048x512_S1024x512_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S1024x2048_S2048x512_S1024x512_1_0_0_1_n_n.rhsIdx (ix2 p q) ((contrEquiv1 dot_S1024x2048_S2048x512_S1024x512_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]

/-- What the body stores at `(p, q)`, from the four blocks it loads. -/
theorem stored_at (x0 : FVec Ideal S1024x2048 .f32) (x1 : FVec Ideal S2048x512 .bf16) (x2 x3 : FVec Ideal S1x512 .f32)
    (p : Fin 1024) (q : Fin 512) :
    k0_pay1 (F := Ideal) x0 x1 x2 x3 (ix2 p q)
      = (∑ k : Fin 2048, sgn (x0 (ix2 p k)) * x1 (ix2 k q)) * x2 (ix2 (0 : Fin 1) q) + x3 (ix2 (0 : Fin 1) q) := by
  unfold k0_pay1
  rw [addf_apply, mulf_apply, broadcastTo_1b_ab_apply, broadcastTo_1b_ab_apply, shapeCast_self, shapeCast_self, shapeCast_self, matmul_at]
  rfl

/-- If the loaded input block holds rows of `X` (row `p` of the block being row `r` of `X`), the weight block the binarized
    `W`, the scale row `inv var` and the bias row `(b − mean) · inv var + beta`, then what the body stores at `(p, q)` is the
    folded arrangement at row `r`, column `q`. -/
theorem stored_folded (X : (⟨2, ![32768, 2048]⟩ : Shape).Idx → EReal) (W : (⟨2, ![2048, 512]⟩ : Shape).Idx → EReal)
    (b beta mean var : (⟨1, ![512]⟩ : Shape).Idx → EReal)
    (x0 : FVec Ideal S1024x2048 .f32) (x1 : FVec Ideal S2048x512 .bf16) (x2 x3 : FVec Ideal S1x512 .f32)
    (p : Fin 1024) (q : Fin 512) (r : Fin 32768)
    (h0 : ∀ k : Fin 2048, x0 (ix2 p k) = X (ix2 r k)) (h1 : ∀ k : Fin 2048, x1 (ix2 k q) = sgn (W (ix2 k q)))
    (h2 : x2 (ix2 (0 : Fin 1) q) = inv (var (ix1 q)))
    (h3 : x3 (ix2 (0 : Fin 1) q) = (b (ix1 q) - mean (ix1 q)) * inv (var (ix1 q)) + beta (ix1 q)) :
    k0_pay1 (F := Ideal) x0 x1 x2 x3 (ix2 p q) = foldedAt X W b beta mean var r q := by
  rw [stored_at, h2, h3]
  unfold foldedAt bdot
  simp only [h0, h1]

end Cert.KernelPoint

end
-- ==== Proof.KernelEntry.lean ====
/-
  What the kernel region finds in the three arrays the host computes before launching it.

  Before the launch the host binarizes the weights (and changes their float format, the identity on the extended reals),
  computes the scale row `rsqrt (var + ε)` and the bias row `(b − mean) · rsqrt (var + ε) + beta`, and reshapes both rows
  from [512] to [1, 512].
-/
import proofs.«124828_j84585085927956_1_alg».proof.Proof.Gen.KernelIdeal.Frame
import Idealize.ShloMosaic.Lib.StableHlo.Run
import Idealize.ShloMosaic.PureOps.Ideal

noncomputable section

namespace Cert.KernelEntry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The weight window's array: the weights binarized. -/
theorem weights_eq (c : Dev nD) :
    (V m c main_v3 : S2048x512.Idx → EReal)
      = truncf .bf16 (select (cmpf .oge (m ((c : Thread nD τ).loc main_arg1) : FVec Ideal S2048x512 .f32)
            (broadcastInDim S2048x512 ![] bcast_S_S2048x512 (constant (F := Ideal) S_ .f32 0x00000000#32)))
          (broadcastInDim S2048x512 ![] bcast_S_S2048x512 (constant (F := Ideal) S_ .f32 0x3F800000#32))
          (broadcastInDim S2048x512 ![] bcast_S_S2048x512 (constant (F := Ideal) S_ .f32 0xBF800000#32))) bitsLt_bf16_f32 := by
  dsimp only [Gen.V]
  simp only [Gen.hostOps0, Gen.hostOps0_1, Gen.hostOps0_2, List.flatten_cons, List.flatten_nil, List.append_nil, List.cons_append,
    List.nil_append]
  after_results
  rfl

/-- The scale window's array: `rsqrt (var + ε)` as one row. -/
theorem scale_eq (c : Dev nD) :
    (V m c main_v7 : S1x512.Idx → EReal)
      = shapeCast S1x512 (Host.rsqrt (addf (m ((c : Thread nD τ).loc main_arg5) : FVec Ideal S512 .f32)
          (broadcastInDim S512 ![] bcast_S_S512 (constant (F := Ideal) S_ .f32 0x3A83126F#32)))) shapeCasts_S512_S1x512 := by
  dsimp only [Gen.V]
  simp only [Gen.hostOps0, Gen.hostOps0_1, Gen.hostOps0_2, List.flatten_cons, List.flatten_nil, List.append_nil, List.cons_append,
    List.nil_append]
  after_results
  rfl

/-- The bias window's array: `(b − mean) · rsqrt (var + ε) + beta` as one row. -/
theorem bias_eq (c : Dev nD) :
    (V m c main_v11 : S1x512.Idx → EReal)
      = shapeCast S1x512 (addf (mulf (subf (m ((c : Thread nD τ).loc main_arg2) : FVec Ideal S512 .f32) (m ((c : Thread nD τ).loc main_arg4)))
            (Host.rsqrt (addf (m ((c : Thread nD τ).loc main_arg5) : FVec Ideal S512 .f32)
              (broadcastInDim S512 ![] bcast_S_S512 (constant (F := Ideal) S_ .f32 0x3A83126F#32)))))
          (m ((c : Thread nD τ).loc main_arg3))) shapeCasts_S512_S1x512 := by
  dsimp only [Gen.V]
  simp only [Gen.hostOps0, Gen.hostOps0_1, Gen.hostOps0_2, List.flatten_cons, List.flatten_nil, List.append_nil, List.cons_append,
    List.nil_append]
  after_results
  rfl

end Cert.KernelEntry

end
-- ==== Proof.KernelArray.lean ====
/-
  From the grid's 32 blocks to the whole result array.

  Grid point `t` loads rows `1024·t … 1024·t + 1023` of the input (all 2048 columns), the whole binarized weight array
  and the two whole rows, and writes back rows `1024·t … 1024·t + 1023` of the result (all 512 columns). What it writes
  at row `p`, column `q` of its block is the folded arrangement at row `1024·t + p`, column `q`; the 32 blocks tile the
  32768 rows, so after the run the result array is the folded arrangement of the six argument arrays everywhere.
-/
import proofs.«124828_j84585085927956_1_alg».proof.Proof.Gen.KernelIdeal.Value
import proofs.«124828_j84585085927956_1_alg».proof.Proof.KernelPoint
import proofs.«124828_j84585085927956_1_alg».proof.Proof.KernelEntry
import Idealize.ShloMosaic.Lib.Pipeline.Value
import Idealize.ShloMosaic.Lib.ValueLayout

noncomputable section

namespace Cert.KernelArray

open Idealize.ShloMosaic Idealize.ShloMosaic.TcCoe Idealize.SL.Sem Idealize.ShloMosaic.ValueIdx
open Idealize.ShloMosaic.Pipeline (Dat)
open Cert.KernelIdeal Cert.KernelIdeal.Gen Cert.SignDot Cert.BnAffine Cert.KernelPoint Cert.KernelEntry

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the grid: the input's row block moves with the result's, which is the point's number;
    every other block index is zero. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The result array: the folded arrangement of the six argument arrays as launched. -/
abbrev result (c : Dev nD) : Buf (Elt Ideal) ((c : Thread nD τ).loc main_v12) :=
  folded (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back is block `t` of the result array. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero offsets_zero]
  simp only [View.ld_unit_zero (S := S1024x2048) offsets_zero, View.ld_unit_zero (S := S2048x512) offsets_zero,
    View.ld_unit_zero (S := S1x512) offsets_zero]
  obtain ⟨e00, e01, e10, e11, e20, e21, e30, e31, e40, e41⟩ := idx_facts t
  have ht : t.val < 32 := lt_of_lt_of_eq t.isLt N_0
  funext j
  obtain ⟨p, q, rfl⟩ : ∃ (p : Fin 1024) (q : Fin 512), j = ix2 p q := ⟨j 0, j 1, eq_ix2 j⟩
  have hr : win0_4.index t (0 : Fin 2) * 1024 + p.val < 32768 := by omega
  show k0_pay1 (F := Ideal) (iblk m c 0 t) (iblk m c 1 t) (iblk m c 2 t) (iblk m c 3 t) (ix2 p q)
    = result m c (((cfg0.win 4).blk t).view.emb (ix2 p q))
  refine (stored_folded (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) p q ⟨win0_4.index t (0 : Fin 2) * 1024 + p.val, hr⟩ ?_ ?_ ?_ ?_).trans ?_
  · -- the input block's row `p` is row `1024·t + p` of the input
    intro k
    unfold iblk
    rw [View.read_apply]
    show V m c main_arg0 (((cfg0.win 0).blk t).view.emb (ix2 p k)) = _
    rw [V_main_arg0]
    refine congrArg _ (funext fun a => Fin.ext ?_)
    match a with
    | ⟨0, _⟩ => show win0_0.index t (0 : Fin 2) * 1024 + 1 * p.val = win0_4.index t (0 : Fin 2) * 1024 + p.val; omega
    | ⟨1, _⟩ => show win0_0.index t (1 : Fin 2) * 2048 + 1 * k.val = k.val; omega
  · -- the weight block is the whole binarized weight array
    intro k
    unfold iblk
    rw [View.read_apply]
    show V m c main_v3 (((cfg0.win 1).blk t).view.emb (ix2 k q)) = _
    have e : ((cfg0.win 1).blk t).view.emb (ix2 k q) = ix2 k q := funext fun a => Fin.ext (by
      match a with
      | ⟨0, _⟩ => show win0_1.index t (0 : Fin 2) * 2048 + 1 * k.val = k.val; omega
      | ⟨1, _⟩ => show win0_1.index t (1 : Fin 2) * 512 + 1 * q.val = q.val; omega)
    rw [e]
    exact (congrFun (weights_eq m c) (ix2 k q)).trans rfl
  · -- the scale block is the whole scale row
    unfold iblk
    rw [View.read_apply]
    show V m c main_v7 (((cfg0.win 2).blk t).view.emb (ix2 (0 : Fin 1) q)) = _
    have e : ((cfg0.win 2).blk t).view.emb (ix2 (0 : Fin 1) q) = ix2 (0 : Fin 1) q := funext fun a => Fin.ext (by
      match a with
      | ⟨0, _⟩ => show win0_2.index t (0 : Fin 2) * 1 + 1 * 0 = 0; omega
      | ⟨1, _⟩ => show win0_2.index t (1 : Fin 2) * 512 + 1 * q.val = q.val; omega)
    rw [e]
    refine (congrFun (scale_eq m c) (ix2 (0 : Fin 1) q)).trans ?_
    refine (shapeCast_a_1a_apply _ _ (0 : Fin 1) q).trans ?_
    rfl
  · -- the bias block is the whole bias row
    unfold iblk
    rw [View.read_apply]
    show V m c main_v11 (((cfg0.win 3).blk t).view.emb (ix2 (0 : Fin 1) q)) = _
    have e : ((cfg0.win 3).blk t).view.emb (ix2 (0 : Fin 1) q) = ix2 (0 : Fin 1) q := funext fun a => Fin.ext (by
      match a with
      | ⟨0, _⟩ => show win0_3.index t (0 : Fin 2) * 1 + 1 * 0 = 0; omega
      | ⟨1, _⟩ => show win0_3.index t (1 : Fin 2) * 512 + 1 * q.val = q.val; omega)
    rw [e]
    refine (congrFun (bias_eq m c) (ix2 (0 : Fin 1) q)).trans ?_
    refine (shapeCast_a_1a_apply _ _ (0 : Fin 1) q).trans ?_
    rfl
  · -- the result block's entry `(p, q)` is the array's entry `(1024·t + p, q)`
    have e : ((cfg0.win 4).blk t).view.emb (ix2 p q)
        = ix2 (⟨win0_4.index t (0 : Fin 2) * 1024 + p.val, hr⟩ : Fin 32768) q := funext fun a => Fin.ext (by
      match a with
      | ⟨0, _⟩ => show win0_4.index t (0 : Fin 2) * 1024 + 1 * p.val = win0_4.index t (0 : Fin 2) * 1024 + p.val; omega
      | ⟨1, _⟩ => show win0_4.index t (1 : Fin 2) * 512 + 1 * q.val = q.val; omega)
    rw [e]
    rfl

/-- An index of the result array is in point `t`'s block iff each coordinate is in the block's range on its axis. -/
theorem mem_blk (t : Fin cfg0.N) (i : S32768x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v12).slice (win0_4.rect t)).set ↔ _
  rw [View.set_slice_whole, Rect.mem_set_unit]
  exact Iff.rfl

/-- Every index of the result array is in the block of the point numbered by its row divided by 1024. -/
theorem cover (i : S32768x512.Idx) : ∃ t : Fin cfg0.N, (cfg0.win 4).flush t = true ∧ i ∈ ((cfg0.win 4).blk t).view.set := by
  have hi0 : (i 0).val < 32768 := (i 0).isLt
  have hi1 : (i 1).val < 512 := (i 1).isLt
  have hN : cfg0.N = 32 := N_0
  have hlt : (i 0).val / 1024 < cfg0.N := by rw [hN]; omega
  obtain ⟨-, -, -, -, -, -, -, -, e40, e41⟩ := idx_facts (⟨(i 0).val / 1024, hlt⟩ : Fin cfg0.N)
  refine ⟨⟨(i 0).val / 1024, hlt⟩, flush0_4 _, ?_⟩
  rw [mem_blk]
  intro a
  match a with
  | ⟨0, _⟩ =>
    show win0_4.index ⟨(i 0).val / 1024, hlt⟩ (0 : Fin 2) * 1024 ≤ (i 0).val ∧ (i 0).val < win0_4.index ⟨(i 0).val / 1024, hlt⟩ (0 : Fin 2) * 1024 + 1024
    rw [e40]
    show (i 0).val / 1024 * 1024 ≤ (i 0).val ∧ (i 0).val < (i 0).val / 1024 * 1024 + 1024
    omega
  | ⟨1, _⟩ =>
    show win0_4.index ⟨(i 0).val / 1024, hlt⟩ (1 : Fin 2) * 512 ≤ (i 1).val ∧ (i 1).val < win0_4.index ⟨(i 0).val / 1024, hlt⟩ (1 : Fin 2) * 512 + 512
    rw [e41]
    omega

/-- So after the run the result array is the folded arrangement of the argument arrays. -/
theorem final (c : Dev nD) : (dats m 0 c).arrAt 4 cfg0.N = result m c :=
  (dats m 0 c).arrAt_eq_of_cover 4 (result m c) (fun t _ => flushed_eq m c t) cover

/-- The kernel's run, read: the result array at the folded arrangement, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelArray

end
-- ==== Proof.lean ====
/-
  A binary dense layer followed by batch normalization at inference, against its jnp reference, over the extended reals.

  Both programs binarize the input [32768, 2048] and the weights [2048, 512] by `where(a ≥ 0, 1.0, -1.0)`, contract them
  over the 2048 shared positions to `y`, and apply per column `q` an affine map with `s = rsqrt (var q + ε)`:
    the kernel (32 row blocks of 1024 rows, the affine map folded on the host beforehand)   y · s + ((b q − mean q) · s + beta q),
    the reference                                                                          ((y + b q) − mean q) · s + beta q.
  The two agree by distributivity, which on the extended reals needs every operand finite. `y` is a sum of 2048 products
  of ±1, a real; `b`, `mean`, `beta` are finite by the precondition; and `s` is a real because the precondition keeps the
  variance nonnegative, so that `var q + ε > 0` (at `var q + ε = 0` the scale would be +∞ and the two arrangements differ).

  Proof/SignDot.lean     the sign function and the ±1 dot product, a real number
  Proof/BnAffine.lean    the two arrangements of the affine map and their equality at finite operands
  Proof/PreDecode.lean   the precondition read: three real vectors and a nonnegative real variance
  Proof/RefStaged.lean   the reference's result, index by index, is the staged arrangement
  Proof/KernelPoint.lean what one grid point stores at an index of its block
  Proof/KernelEntry.lean the arrays the host prepares before the launch
  Proof/KernelArray.lean the 32 blocks tile the result array: the kernel's result is the folded arrangement
-/
import proofs.«124828_j84585085927956_1_alg».proof.Defs
import proofs.«124828_j84585085927956_1_alg».proof.Proof.Gen.Kernel
import proofs.«124828_j84585085927956_1_alg».proof.Proof.Gen.Kernel.Skeleton
import proofs.«124828_j84585085927956_1_alg».proof.Proof.Gen.Kernel.Launch
import proofs.«124828_j84585085927956_1_alg».proof.Proof.Gen.Kernel.Points
import proofs.«124828_j84585085927956_1_alg».proof.Proof.Gen.Kernel.Frame
import proofs.«124828_j84585085927956_1_alg».proof.Proof.Gen.KernelIdeal
import proofs.«124828_j84585085927956_1_alg».proof.Proof.Gen.KernelIdeal.Skeleton
import proofs.«124828_j84585085927956_1_alg».proof.Proof.Gen.KernelIdeal.Launch
import proofs.«124828_j84585085927956_1_alg».proof.Proof.Gen.KernelIdeal.Points
import proofs.«124828_j84585085927956_1_alg».proof.Proof.Gen.KernelIdeal.Frame
import proofs.«124828_j84585085927956_1_alg».proof.Proof.Gen.ReferenceIdeal
import proofs.«124828_j84585085927956_1_alg».proof.Proof.Gen.KernelIdeal.Value
import proofs.«124828_j84585085927956_1_alg».proof.Proof.Gen.ReferenceIdeal.Run
import proofs.«124828_j84585085927956_1_alg».proof.Proof.Gen.ReferenceIdeal.Read
import proofs.«124828_j84585085927956_1_alg».proof.Proof.Gen.Pre_finite_inputs
import proofs.«124828_j84585085927956_1_alg».proof.Proof.PreDecode
import proofs.«124828_j84585085927956_1_alg».proof.Proof.RefStaged
import proofs.«124828_j84585085927956_1_alg».proof.Proof.KernelArray
import Idealize.ShloMosaic.Adequacy
import Idealize.ShloMosaic.Init

noncomputable section

namespace Cert.Proof

open Idealize.ShloMosaic Idealize.SL.Sem

/-- The word-level kernel terminates without fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the folded arrangement of the argument arrays: the kernel by its blocks, the reference because
    its staged arrangement equals the folded one where the precondition holds. -/
theorem algebraic : Cert.algebraic_KernelIdeal_ReferenceIdeal := by
  intro m ρ m' ρ' hpre hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Read.val_main_v23_eq]
  obtain ⟨hb, hbeta, hmean, hvar⟩ := Cert.PreDecode.columns_real _ _ _ _ _ _ (hpre c)
  funext i
  rw [Cert.RefStaged.result_apply]
  exact Cert.BnAffine.stagedAt_eq_foldedAt _ _ _ _ _ _ hb hbeta hmean hvar (i 0) (i 1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
